-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S2000x128 : Shape := ⟨2, ![2000, 128]⟩
abbrev S1x128 : Shape := ⟨2, ![1, 128]⟩

abbrev nBuf : Space → Nat
  | .hbm => 42
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S_, .f32⟩
  | .hbm, ⟨38, _⟩ => ⟨S50000x128, .i1⟩
  | .hbm, ⟨39, _⟩ => ⟨S50000x128, .f32⟩
  | .hbm, ⟨40, _⟩ => ⟨S50000x128, .f32⟩
  | .hbm, ⟨41, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S_, .f32⟩
  | .hbm, ⟨38, _⟩ => ⟨S50000x128, .i1⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S128x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.NodeUpdate.lean ====
/-
  The node update both programs compute, one entry at a time, on the extended reals.

  With `x` the node features, `h` the aggregated neighbour features (the mean of the features gathered along the
  incoming edges, zero for a node with none), `ws` / `wn` the self and neighbour weights, `bs` the self bias and
  `b` the output bias, the entry at node `r`, output feature `q` is

      ((∑ₖ x[r,k] · ws[q,k] + bs[q]) + ∑ₖ h[r,k] · wn[q,k]) + b[q].

  The weights enter by their ROWS: both programs transpose them before the product. The grouping of the three
  additions is the one both programs use, so no law of the extended reals beyond rewriting inside the sums is needed.
  The number of rows is a parameter: the same entry is read off one block of 2000 nodes and off the whole array.
-/
import Idealize.ShloMosaic.PureOps.Ideal
import Idealize.ShloMosaic.Lib.ValueIdx

noncomputable section

namespace Cert.NodeUpdate

open Idealize.ShloMosaic Idealize.ShloMosaic.ValueIdx

/-- The updated feature `q` of node `r`. -/
def entry {N : ℕ} (x h : (⟨2, ![N, 128]⟩ : Shape).Idx → EReal) (ws wn : (⟨2, ![128, 128]⟩ : Shape).Idx → EReal)
    (bs b : (⟨1, ![128]⟩ : Shape).Idx → EReal) (r : Fin N) (q : Fin 128) : EReal :=
  ((∑ k : Fin 128, x (ix2 r k) * ws (ix2 q k) + bs (ix1 q)) + ∑ k : Fin 128, h (ix2 r k) * wn (ix2 q k)) + b (ix1 q)

/-- The updated features of all nodes, as one array. -/
def update {N : ℕ} (x h : (⟨2, ![N, 128]⟩ : Shape).Idx → EReal) (ws wn : (⟨2, ![128, 128]⟩ : Shape).Idx → EReal)
    (bs b : (⟨1, ![128]⟩ : Shape).Idx → EReal) : (⟨2, ![N, 128]⟩ : Shape).Idx → EReal :=
  fun i => entry x h ws wn bs b (i 0) (i 1)

theorem update_ix2 {N : ℕ} (x h : (⟨2, ![N, 128]⟩ : Shape).Idx → EReal) (ws wn : (⟨2, ![128, 128]⟩ : Shape).Idx → EReal)
    (bs b : (⟨1, ![128]⟩ : Shape).Idx → EReal) (r : Fin N) (q : Fin 128) :
    update x h ws wn bs b (ix2 r q) = entry x h ws wn bs b r q := rfl

/-- An entry depends only on row `r` of the two feature arrays, row `q` of the two weight matrices and entry `q` of the
    two biases: arrays that agree there (a block of rows and the array it was cut from; a matrix and the same matrix read
    through a window that covers it) give the same entry. -/
theorem entry_congr {M N : ℕ} (x' h' : (⟨2, ![M, 128]⟩ : Shape).Idx → EReal) (x h : (⟨2, ![N, 128]⟩ : Shape).Idx → EReal)
    (ws' wn' ws wn : (⟨2, ![128, 128]⟩ : Shape).Idx → EReal) (bs' b' bs b : (⟨1, ![128]⟩ : Shape).Idx → EReal)
    (p : Fin M) (r : Fin N) (q : Fin 128)
    (hx : ∀ k : Fin 128, x' (ix2 p k) = x (ix2 r k)) (hh : ∀ k : Fin 128, h' (ix2 p k) = h (ix2 r k))
    (hws : ∀ k : Fin 128, ws' (ix2 q k) = ws (ix2 q k)) (hwn : ∀ k : Fin 128, wn' (ix2 q k) = wn (ix2 q k))
    (hbs : bs' (ix1 q) = bs (ix1 q)) (hb : b' (ix1 q) = b (ix1 q)) :
    entry x' h' ws' wn' bs' b' p q = entry x h ws wn bs b r q := by
  unfold entry
  rw [Finset.sum_congr rfl (fun k _ => by rw [hx k, hws k] : ∀ k ∈ Finset.univ, x' (ix2 p k) * ws' (ix2 q k) = x (ix2 r k) * ws (ix2 q k)),
    Finset.sum_congr rfl (fun k _ => by rw [hh k, hwn k] : ∀ k ∈ Finset.univ, h' (ix2 p k) * wn' (ix2 q k) = h (ix2 r k) * wn (ix2 q k)),
    hbs, hb]

end Cert.NodeUpdate

end
-- ==== Proof.BlockEntry.lean ====
/-
  What the kernel body stores for one block of 2000 nodes, one entry at a time.

  The body casts its four matrix operands to bf16 (the identity on the extended reals), transposes the two weight
  matrices, multiplies the block of node features by the transposed self weights and the block of aggregated neighbour
  features by the transposed neighbour weights, each into a zero accumulator, and adds the two bias vectors as rows
  broadcast over the block. Read at row `p`, column `q`, a product into a zero accumulator is the plain sum over the
  contracted axis, a transposed matrix at `(k, q)` is the matrix at `(q, k)`, and a broadcast row at `(p, q)` is the
  vector at `q`: the stored value is the node update's entry `(p, q)` of the block's own rows.
-/
import proofs.«104045_j75591424410316_1_alg».proof.Proof.Gen.KernelIdeal.Skeleton
import proofs.«104045_j75591424410316_1_alg».proof.Proof.NodeUpdate
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockEntry

open Cert.KernelIdeal Cert.KernelIdeal.Gen Idealize.ShloMosaic Idealize.ShloMosaic.TcCoe Idealize.ShloMosaic.ValueIdx

/-! ## The product's operand indices: rows of the left operand, columns of the right -/

theorem lhs_axis0 (i : S2000x128.Idx) (s : dot_S2000x128_S128x128_S2000x128_1_0_0_1_n_n.contr.Idx) :
    (dot_S2000x128_S128x128_S2000x128_1_0_0_1_n_n.lhsIdx i s 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (s : dot_S2000x128_S128x128_S2000x128_1_0_0_1_n_n.contr.Idx) :
    (dot_S2000x128_S128x128_S2000x128_1_0_0_1_n_n.lhsIdx i s 1).val = (s ⟨0, by decide⟩).val :=
  dot_S2000x128_S128x128_S2000x128_1_0_0_1_n_n.lhsIdx_val_of_single rfl i s
theorem rhs_axis0 (i : S2000x128.Idx) (s : dot_S2000x128_S128x128_S2000x128_1_0_0_1_n_n.contr.Idx) :
    (dot_S2000x128_S128x128_S2000x128_1_0_0_1_n_n.rhsIdx i s 0).val = (s ⟨0, by decide⟩).val :=
  dot_S2000x128_S128x128_S2000x128_1_0_0_1_n_n.rhsIdx_val_of_single rfl i s
theorem rhs_axis1 (i : S2000x128.Idx) (s : dot_S2000x128_S128x128_S2000x128_1_0_0_1_n_n.contr.Idx) :
    (dot_S2000x128_S128x128_S2000x128_1_0_0_1_n_n.rhsIdx i s 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000, 128] × [128, 128] product into the zero accumulator, at row `p`, column `q`: the sum over the shared axis of
    the left operand's row `p` times the right operand's column `q`. -/
theorem matmul_zero_ix2 (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A bias vector cast to one row and broadcast over the block's 2000 rows, at `(p, q)`: the vector at `q`. -/
theorem bias_row_ix2 (v : FVec Ideal S128 .f32) (p : Fin 2000) (q : Fin 128) :
    broadcastTo S2000x128 (shapeCast S1x128 v shapeCasts_S128_S1x128) broadcasts_S1x128_S2000x128 (ix2 p q) = v (ix1 q) :=
  (broadcastTo_1b_ab_apply _ broadcasts_S1x128_S2000x128 p q).trans (shapeCast_a_1a_apply v shapeCasts_S128_S1x128 0 q)

/-- A weight matrix cast to bf16 and transposed, at `(k, q)`: the matrix at `(q, k)` — the product runs over its ROW `q`. -/
theorem weight_col_ix2 (w : FVec Ideal S128x128 .f32) (k q : Fin 128) :
    (transpose S128x128 [1, 0] (truncf (F := Ideal) .bf16 w bitsLt_bf16_f32) transposes_S128x128_p1_0_S128x128 (ix2 k q) : EReal)
      = w (ix2 q k) :=
  transpose_ix2_apply (truncf (F := Ideal) .bf16 w bitsLt_bf16_f32) transposes_S128x128_p1_0_S128x128 k q

/-- THE BLOCK'S ENTRY: what the body stores at row `p`, column `q` of its output block is the node update's entry of
    the block's rows of node and neighbour features, the weight matrices' rows `q` and the biases at `q`. -/
theorem pay_ix2 (x h : Vec Ideal S2000x128 .f32) (ws wn : Vec Ideal S128x128 .f32) (bs b : Vec Ideal S128 .f32)
    (p : Fin 2000) (q : Fin 128) :
    k0_pay1 (F := Ideal) x h ws wn bs b (ix2 p q) = Cert.NodeUpdate.entry x h ws wn bs b p q := by
  unfold k0_pay1 Cert.NodeUpdate.entry
  dsimp only
  rw [addf_apply, addf_apply, addf_apply, matmul_zero_ix2, matmul_zero_ix2, bias_row_ix2, bias_row_ix2]
  simp only [truncf_apply, shapeCast_self]
  refine congrArg₂ (· + ·) (congrArg₂ (· + ·) (congrArg₂ (· + ·) ?_ rfl) ?_) rfl
  · exact Finset.sum_congr rfl fun k _ => congrArg (x (ix2 p k) * ·) (weight_col_ix2 ws k q)
  · exact Finset.sum_congr rfl fun k _ => congrArg (h (ix2 p k) * ·) (weight_col_ix2 wn k q)

end Cert.KernelIdeal.BlockEntry

end
-- ==== Proof.NodeBlocks.lean ====
/-
  What one grid point writes back, for any contents of the staged arrays.

  The grid has 25 points; point `t` stages rows 2000·t … 2000·t + 1999 of the node features and of the aggregated
  neighbour features, the two weight matrices and the two bias vectors whole, and writes back rows 2000·t … of the
  result. Row `p` of a feature block is row 2000·t + p of its array, and an entry of the node update reads only its own
  row of the features: so what the body leaves for point `t` is block `t` of ONE array, the node update of the staged
  arrays. Stated for arbitrary array contents: nothing here depends on what the host operations before the region wrote.
-/
import proofs.«104045_j75591424410316_1_alg».proof.Proof.Gen.KernelIdeal.Frame
import proofs.«104045_j75591424410316_1_alg».proof.Proof.BlockEntry
import proofs.«104045_j75591424410316_1_alg».proof.Proof.NodeUpdate
import Idealize.ShloMosaic.Lib.ValueIdx
import Idealize.ShloMosaic.Lib.Pipeline.Value

set_option maxRecDepth 16384

noncomputable section

namespace Cert.KernelIdeal.NodeBlocks

open Cert.KernelIdeal Cert.KernelIdeal.Gen Idealize.ShloMosaic Idealize.ShloMosaic.TcCoe Idealize.SL.Sem
open Idealize.ShloMosaic.ValueIdx

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 25 points: the two feature windows and the result window are at block row
    `t`, block column 0; the weight and bias windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- ONE ENTRY OF ONE BLOCK. If the body's six loaded blocks agree with six arrays — the two feature blocks' row `j 0` with
    the arrays' row `i 0`, the weight and bias blocks everywhere — and `i`, `j` have the same column, what the body stores at
    `j` is the node update of the arrays at `i`. -/
theorem block_eq_update (x h : Vec Ideal S2000x128 .f32) (ws wn : Vec Ideal S128x128 .f32) (bs b : Vec Ideal S128 .f32)
    (X H : S50000x128.Idx → EReal) (WS WN : S128x128.Idx → EReal) (BS B : S128.Idx → EReal)
    (j : S2000x128.Idx) (i : S50000x128.Idx) (hq : (i 1).val = (j 1).val)
    (hx : ∀ k : Fin 128, x (ix2 (j 0) k) = X (ix2 (i 0) k)) (hh : ∀ k : Fin 128, h (ix2 (j 0) k) = H (ix2 (i 0) k))
    (hws : ∀ q k : Fin 128, ws (ix2 q k) = WS (ix2 q k)) (hwn : ∀ q k : Fin 128, wn (ix2 q k) = WN (ix2 q k))
    (hbs : ∀ q : Fin 128, bs (ix1 q) = BS (ix1 q)) (hb : ∀ q : Fin 128, b (ix1 q) = B (ix1 q)) :
    k0_pay1 (F := Ideal) x h ws wn bs b j = Cert.NodeUpdate.update (N := 50000) X H WS WN BS B i := by
  obtain ⟨p, q, rfl⟩ : ∃ (p : Fin 2000) (q : Fin 128), j = ix2 p q := ⟨j 0, j 1, eq_ix2 j⟩
  obtain ⟨r, q', rfl⟩ : ∃ (r : Fin 50000) (q' : Fin 128), i = ix2 r q' := ⟨i 0, i 1, eq_ix2 i⟩
  have e : q' = q := Fin.ext hq
  subst e
  rw [Cert.KernelIdeal.BlockEntry.pay_ix2, Cert.NodeUpdate.update_ix2]
  exact Cert.NodeUpdate.entry_congr x h X H ws wn WS WN bs b BS B p r q' hx hh (hws q') (hwn q') (hbs q') (hb q')

/-- WHAT POINT `t` LEAVES, CUT TO ITS BLOCK, for any contents `X H WS BS WN B` of the six staged arrays: block `t` of their
    node update. -/
theorem point_eq (t : Fin cfg0.N) (X H : S50000x128.Idx → EReal) (WS : S128x128.Idx → EReal) (BS : S128.Idx → EReal)
    (WN : S128x128.Idx → EReal) (B : S128.Idx → EReal) :
    (cfg0.win 6).cut (grid0.coords t)
      (out0_6 (F := Ideal) (((cfg0.win 0).blk t).view.read (Elt Ideal) X) (((cfg0.win 1).blk t).view.read (Elt Ideal) H)
        (((cfg0.win 2).blk t).view.read (Elt Ideal) WS) (((cfg0.win 3).blk t).view.read (Elt Ideal) BS)
        (((cfg0.win 4).blk t).view.read (Elt Ideal) WN) (((cfg0.win 5).blk t).view.read (Elt Ideal) B))
      = ((cfg0.win 6).blk t).view.read (Elt Ideal) (Cert.NodeUpdate.update (N := 50000) X H WS WN BS B) := by
  unfold out0_6
  rw [View.canon_unit_zero hz2]
  simp only [View.ld_unit_zero (S := S2000x128) hz2, View.ld_unit_zero (S := S128x128) hz2, View.ld_unit_zero (S := S128) hz1]
  obtain ⟨e00, e01, e10, e11, e20, e21, e30, e40, e41, e50, e60, e61⟩ := idx_facts t
  funext j
  show k0_pay1 (F := Ideal) (((cfg0.win 0).blk t).view.read (Elt Ideal) X) (((cfg0.win 1).blk t).view.read (Elt Ideal) H)
        (((cfg0.win 2).blk t).view.read (Elt Ideal) WS) (((cfg0.win 4).blk t).view.read (Elt Ideal) WN)
        (((cfg0.win 3).blk t).view.read (Elt Ideal) BS) (((cfg0.win 5).blk t).view.read (Elt Ideal) B) j
      = Cert.NodeUpdate.update (N := 50000) X H WS WN BS B (((cfg0.win 6).blk t).view.emb j)
  refine block_eq_update _ _ _ _ _ _ X H WS WN BS B j (((cfg0.win 6).blk t).view.emb j) ?_ ?_ ?_ ?_ ?_ ?_ ?_
  · -- the result block's column is the array's column
    show win0_6.index t (1 : Fin 2) * 128 + 1 * (j 1).val = (j 1).val
    omega
  · -- row `j 0` of the node-feature block is row 2000·t + j 0 of the array
    intro k
    show X (((cfg0.win 0).blk t).view.emb (ix2 (j 0) k)) = _
    refine congrArg X (funext fun a => Fin.ext ?_)
    match a with
    | ⟨0, _⟩ => show win0_0.index t (0 : Fin 2) * 2000 + 1 * (j 0).val = win0_6.index t (0 : Fin 2) * 2000 + 1 * (j 0).val; omega
    | ⟨1, _⟩ => show win0_0.index t (1 : Fin 2) * 128 + 1 * k.val = k.val; omega
  · -- the same for the aggregated neighbour features
    intro k
    show H (((cfg0.win 1).blk t).view.emb (ix2 (j 0) k)) = _
    refine congrArg H (funext fun a => Fin.ext ?_)
    match a with
    | ⟨0, _⟩ => show win0_1.index t (0 : Fin 2) * 2000 + 1 * (j 0).val = win0_6.index t (0 : Fin 2) * 2000 + 1 * (j 0).val; omega
    | ⟨1, _⟩ => show win0_1.index t (1 : Fin 2) * 128 + 1 * k.val = k.val; omega
  · -- the self weights are staged whole
    intro q k
    show WS (((cfg0.win 2).blk t).view.emb (ix2 q k)) = _
    refine congrArg WS (funext fun a => Fin.ext ?_)
    match a with
    | ⟨0, _⟩ => show win0_2.index t (0 : Fin 2) * 128 + 1 * q.val = q.val; omega
    | ⟨1, _⟩ => show win0_2.index t (1 : Fin 2) * 128 + 1 * k.val = k.val; omega
  · -- the neighbour weights are staged whole
    intro q k
    show WN (((cfg0.win 4).blk t).view.emb (ix2 q k)) = _
    refine congrArg WN (funext fun a => Fin.ext ?_)
    match a with
    | ⟨0, _⟩ => show win0_4.index t (0 : Fin 2) * 128 + 1 * q.val = q.val; omega
    | ⟨1, _⟩ => show win0_4.index t (1 : Fin 2) * 128 + 1 * k.val = k.val; omega
  · -- the self bias is staged whole
    intro q
    show BS (((cfg0.win 3).blk t).view.emb (ix1 q)) = _
    refine congrArg BS (funext fun a => Fin.ext ?_)
    match a with
    | ⟨0, _⟩ => show win0_3.index t (0 : Fin 1) * 128 + 1 * q.val = q.val; omega
  · -- the output bias is staged whole
    intro q
    show B (((cfg0.win 5).blk t).view.emb (ix1 q)) = _
    refine congrArg B (funext fun a => Fin.ext ?_)
    match a with
    | ⟨0, _⟩ => show win0_5.index t (0 : Fin 1) * 128 + 1 * q.val = q.val; omega

end Cert.KernelIdeal.NodeBlocks

end
-- ==== Proof.NodeArray.lean ====
/-
  The kernel's result array after the run: the node update of the argument arrays and of the aggregated neighbour
  features the region finds.

  Each of the 25 grid points writes back block `t` of one array, the node update of the staged arrays (for any contents of
  those arrays: the block-by-block step). The 25 blocks of 2000 rows tile the 50000 rows — row `r` lies in the block of
  point `r / 2000` — so the result array ends as that update; and of the six staged arrays five are arguments no host
  operation writes, the sixth the host's aggregated neighbour features.
-/
import proofs.«104045_j75591424410316_1_alg».proof.Proof.Gen.KernelIdeal.Value
import proofs.«104045_j75591424410316_1_alg».proof.Proof.NodeBlocks
import proofs.«104045_j75591424410316_1_alg».proof.Proof.NodeUpdate
import Idealize.ShloMosaic.Lib.ValueIdx
import Idealize.ShloMosaic.Lib.Pipeline.Value

set_option maxRecDepth 16384

noncomputable section

namespace Cert.KernelIdeal.NodeArray

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- WHAT POINT `t` WRITES BACK is block `t` of the node update of the six staged arrays as the region finds them. -/
theorem flushed_eq (c : Dev nD) (t : Fin cfg0.N) :
    (dats m 0 c).flushed 6 t = ((cfg0.win 6).blk t).view.read (Elt Ideal)
      (Cert.NodeUpdate.update (N := 50000) (V m c (Pipeline.arrRef spec0 (0 : Fin cfg0.W))) (V m c (Pipeline.arrRef spec0 (1 : Fin cfg0.W)))
        (V m c (Pipeline.arrRef spec0 (2 : Fin cfg0.W))) (V m c (Pipeline.arrRef spec0 (4 : Fin cfg0.W)))
        (V m c (Pipeline.arrRef spec0 (3 : Fin cfg0.W))) (V m c (Pipeline.arrRef spec0 (5 : Fin cfg0.W)))) := by
  rw [Value.flushed6]
  exact Cert.KernelIdeal.NodeBlocks.point_eq t (V m c (Pipeline.arrRef spec0 (0 : Fin cfg0.W))) (V m c (Pipeline.arrRef spec0 (1 : Fin cfg0.W)))
    (V m c (Pipeline.arrRef spec0 (2 : Fin cfg0.W))) (V m c (Pipeline.arrRef spec0 (3 : Fin cfg0.W)))
    (V m c (Pipeline.arrRef spec0 (4 : Fin cfg0.W))) (V m c (Pipeline.arrRef spec0 (5 : Fin cfg0.W)))

/-- Every block row of the result is some point's. -/
theorem idx_onto : ∀ q0 : Fin 25, ∃ t : Fin cfg0.N, win0_6.index t = ![q0.val, 0] :=
  (by decide +kernel : ∀ q0 : Fin 25, ∃ t : Fin grid0.N, win0_6.index t = ![q0.val, 0])

/-- An index of the result array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v23).slice (win0_6.rect t)).set ↔ _
  rw [View.set_slice_whole, Rect.mem_set_unit]
  exact Iff.rfl

/-- THE BLOCKS TILE THE ARRAY: row `r` is in the block of point `r / 2000`, which writes back. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE ARRAY after the run: the node update of the six staged arrays as the region finds them. -/
theorem final (c : Dev nD) : (dats m 0 c).arrAt 6 cfg0.N
    = Cert.NodeUpdate.update (N := 50000) (V m c (Pipeline.arrRef spec0 (0 : Fin cfg0.W))) (V m c (Pipeline.arrRef spec0 (1 : Fin cfg0.W)))
        (V m c (Pipeline.arrRef spec0 (2 : Fin cfg0.W))) (V m c (Pipeline.arrRef spec0 (4 : Fin cfg0.W)))
        (V m c (Pipeline.arrRef spec0 (3 : Fin cfg0.W))) (V m c (Pipeline.arrRef spec0 (5 : Fin cfg0.W))) :=
  (dats m 0 c).arrAt_eq_of_cover 6 _ (fun t _ => flushed_eq m c t) cover

/-- Five of the staged arrays are arguments no host operation writes (the region finds them as launched); the window of the
    aggregated neighbour features stages the array `main_v22`. -/
theorem staged_eq (c : Dev nD) :
    Cert.NodeUpdate.update (N := 50000) (V m c (Pipeline.arrRef spec0 (0 : Fin cfg0.W))) (V m c (Pipeline.arrRef spec0 (1 : Fin cfg0.W)))
        (V m c (Pipeline.arrRef spec0 (2 : Fin cfg0.W))) (V m c (Pipeline.arrRef spec0 (4 : Fin cfg0.W)))
        (V m c (Pipeline.arrRef spec0 (3 : Fin cfg0.W))) (V m c (Pipeline.arrRef spec0 (5 : Fin cfg0.W)))
    = Cert.NodeUpdate.update (N := 50000) (m ((c : Thread nD τ).loc main_arg0)) (V m c main_v22) (m ((c : Thread nD τ).loc main_arg3))
        (m ((c : Thread nD τ).loc main_arg5)) (m ((c : Thread nD τ).loc main_arg4)) (m ((c : Thread nD τ).loc main_arg6)) := by
  rw [show V m c (Pipeline.arrRef spec0 (0 : Fin cfg0.W)) = m ((c : Thread nD τ).loc main_arg0) from V_main_arg0 m c,
    show V m c (Pipeline.arrRef spec0 (2 : Fin cfg0.W)) = m ((c : Thread nD τ).loc main_arg3) from V_main_arg3 m c,
    show V m c (Pipeline.arrRef spec0 (3 : Fin cfg0.W)) = m ((c : Thread nD τ).loc main_arg4) from V_main_arg4 m c,
    show V m c (Pipeline.arrRef spec0 (4 : Fin cfg0.W)) = m ((c : Thread nD τ).loc main_arg5) from V_main_arg5 m c,
    show V m c (Pipeline.arrRef spec0 (5 : Fin cfg0.W)) = m ((c : Thread nD τ).loc main_arg6) from V_main_arg6 m c]

/-- THE RUN, READ: every weakly fair execution ends with the result array at the node update of the argument arrays as
    launched and of the aggregated neighbour features as the region finds them, the arguments unchanged. -/
theorem run : θ_run defs (onTc (τ := τ) (main (F := Ideal))) ⟨m, fun _ => 0, ρ⟩ fun r => ∀ c : Dev nD,
      r.2.mem ((c : Thread nD τ).loc main_v23)
        = Cert.NodeUpdate.update (N := 50000) (m ((c : Thread nD τ).loc main_arg0)) (V m c main_v22) (m ((c : Thread nD τ).loc main_arg3))
            (m ((c : Thread nD τ).loc main_arg5)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (staged_eq m c)), (h c).2⟩)
    (Value.run_blocks m ρ)

end Cert.KernelIdeal.NodeArray

end
-- ==== Proof.NeighbourMean.lean ====
/-
  The aggregated neighbour features the region finds are the reference's.

  Before the region the kernel's program runs, on the host, the very operations the reference runs: gather the features
  along the edges' sources, add them up per destination node, count the edges per destination, divide by the count (at
  least one) and put zero where the count is zero. Both programs print that chain with the same operations, literals and
  dimension records, so the array the neighbour window stages is the reference's stage of the same name, as a function
  of the three arguments it reads (features, sources, destinations). The chain is never opened: the two spellings are
  compared as they stand, at any float family.
-/
import proofs.«104045_j75591424410316_1_alg».proof.Proof.Gen.KernelIdeal.Frame
import proofs.«104045_j75591424410316_1_alg».proof.Proof.RefRead
import Idealize.ShloMosaic.Lib.StableHlo.Run

set_option maxRecDepth 16384

noncomputable section

namespace Cert.KernelIdeal.NeighbourMean

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000 in
/-- THE STAGED NEIGHBOUR ARRAY: what the region finds in the `where`'s result is the reference's stage of the launch contents
    of the features, the sources and the destinations. -/
theorem neigh_eq (c : Dev nD) :
    V m c main_v22 = Cert.ReferenceIdeal.ReadP.val_main_v22 (F := F) (m ((c : Thread nD τ).loc main_arg0))
      (m ((c : Thread nD τ).loc main_arg1)) (m ((c : Thread nD τ).loc main_arg2)) := by
  dsimp only [V]
  simp only [hostOps0, hostOps0_1, List.flatten_cons, List.flatten_nil, List.append_nil, List.cons_append, List.nil_append]
  after_results_simp
  simp only [TRef.ofBuf, TRef.toBuf, cast_eq]
  rfl

end Cert.KernelIdeal.NeighbourMean

end
-- ==== Proof.RefUpdate.lean ====
/-
  The reference's result is the node update of its arguments and of its own aggregated neighbour features.

  Read one operation at a time, the reference's last stage is  ((x · wsᵀ + bs) + h · wnᵀ) + b  with `h` the stage the
  `where` writes (the mean of the gathered features per node, zero where a node has no incoming edge). At an index
  `(r, q)` the two products are sums over the shared axis, the transposes swap the weight matrices' coordinates and the
  two bias rows read the vectors at `q`: the node update's entry `(r, q)`.
-/
import proofs.«104045_j75591424410316_1_alg».proof.Proof.RefRead
import proofs.«104045_j75591424410316_1_alg».proof.Proof.NodeUpdate
import Idealize.ShloMosaic.Lib.ValueIdx

noncomputable section

namespace Cert.ReferenceIdeal.RefUpdate

open Cert.ReferenceIdeal Cert.ReferenceIdeal.ReadP Idealize.ShloMosaic Idealize.ShloMosaic.TcCoe Idealize.ShloMosaic.ValueIdx

/-! ## The stages' index maps, at an index given by its coordinates -/

theorem lrow26 (r : Fin 50000) (q k : Fin 128) : lidx_main_v26 (ix2 r q) k = ix2 r k :=
  funext fun a => Fin.ext (by match a with | ⟨0, _⟩ => rfl | ⟨1, _⟩ => rfl)
theorem wrow26 (r : Fin 50000) (q k : Fin 128) : idx_main_v25 (ridx_main_v26 (ix2 r q) k) = ix2 q k :=
  funext fun a => Fin.ext (by match a with | ⟨0, _⟩ => rfl | ⟨1, _⟩ => rfl)
theorem lrow24 (r : Fin 50000) (q k : Fin 128) : lidx_main_v24 (ix2 r q) k = ix2 r k :=
  funext fun a => Fin.ext (by match a with | ⟨0, _⟩ => rfl | ⟨1, _⟩ => rfl)
theorem wrow24 (r : Fin 50000) (q k : Fin 128) : idx_main_v23 (ridx_main_v24 (ix2 r q) k) = ix2 q k :=
  funext fun a => Fin.ext (by match a with | ⟨0, _⟩ => rfl | ⟨1, _⟩ => rfl)
theorem bias28 (r : Fin 50000) (q : Fin 128) : idx_main_v27 (idx_main_v28 (ix2 r q)) = ix1 q :=
  funext fun a => Fin.ext (by match a with | ⟨0, _⟩ => rfl)
theorem bias32 (r : Fin 50000) (q : Fin 128) : idx_main_v31 (idx_main_v32 (ix2 r q)) = ix1 q :=
  funext fun a => Fin.ext (by match a with | ⟨0, _⟩ => rfl)

/-- The reference's result stage is the node update of the arguments, with the stage `val_main_v22` (the masked mean of
    the neighbours' features) in the place of the aggregated features. -/
theorem result_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v33 (F := Ideal) x0 x1 x2 x3 x4 x5 x6
      = Cert.NodeUpdate.update (N := 50000) x0 (val_main_v22 (F := Ideal) x0 x1 x2) x3 x5 x4 x6 := by
  funext i
  obtain ⟨r, q, rfl⟩ : ∃ (r : Fin 50000) (q : Fin 128), i = ix2 r q := ⟨i 0, i 1, eq_ix2 i⟩
  rw [val_main_v33_apply, val_main_v30_apply, val_main_v29_apply, val_main_v26_apply, val_main_v24_apply,
    val_main_v28_apply, val_main_v27_apply, val_main_v32_apply, val_main_v31_apply]
  simp only [val_main_v25_apply, val_main_v23_apply, lrow26, wrow26, lrow24, wrow24, bias28, bias32]
  rfl

end Cert.ReferenceIdeal.RefUpdate

end
-- ==== Proof.lean ====
/-
  The proof of `Cert.Claim`: the fused self/neighbour linear layer of a graph convolution, tiled over the nodes, against
  its plain jnp form.

  Both programs first compute, on the host and with the same operations, the aggregated neighbour features `h`: the
  features gathered along the edges' sources, summed per destination node, divided by the node's in-degree (at least one)
  and set to zero where the in-degree is zero. The kernel then computes, 2000 nodes at a grid point,

      ((x · wsᵀ + bs) + h · wnᵀ) + b

  with its matrix operands cast to bf16, and the reference computes the same expression on the whole arrays. On the
  extended reals the casts are the identity, a product into a zero accumulator is the host's product, and both programs
  group the three additions alike, so the two results are one function of the arguments, entry by entry
  (`Cert.NodeUpdate.update`): no law of the extended reals is used beyond rewriting inside the sums, and the
  precondition is never opened.

  The three frames are the generated ones (the reference's is its run with the result dropped); the idealization
  rewrote nothing, so `preserves` is `True`; the value claim puts the kernel's result array, read off the generated
  blockwise value leg (`Cert.KernelIdeal.NodeArray.run`), beside the reference's run read one operation at a time
  (`Cert.ReferenceIdeal.RefUpdate.result_eq`), with the staged neighbour array identified with the reference's stage
  (`Cert.KernelIdeal.NeighbourMean.neigh_eq`).
-/
import proofs.«104045_j75591424410316_1_alg».proof.Defs
import proofs.«104045_j75591424410316_1_alg».proof.Proof.Gen.Kernel
import proofs.«104045_j75591424410316_1_alg».proof.Proof.Gen.Kernel.Skeleton
import proofs.«104045_j75591424410316_1_alg».proof.Proof.Gen.Kernel.Launch
import proofs.«104045_j75591424410316_1_alg».proof.Proof.Gen.Kernel.Points
import proofs.«104045_j75591424410316_1_alg».proof.Proof.Gen.Kernel.Frame
import proofs.«104045_j75591424410316_1_alg».proof.Proof.Gen.KernelIdeal
import proofs.«104045_j75591424410316_1_alg».proof.Proof.Gen.KernelIdeal.Skeleton
import proofs.«104045_j75591424410316_1_alg».proof.Proof.Gen.KernelIdeal.Launch
import proofs.«104045_j75591424410316_1_alg».proof.Proof.Gen.KernelIdeal.Points
import proofs.«104045_j75591424410316_1_alg».proof.Proof.Gen.KernelIdeal.Frame
import proofs.«104045_j75591424410316_1_alg».proof.Proof.Gen.ReferenceIdeal
import proofs.«104045_j75591424410316_1_alg».proof.Proof.Gen.Pre_finite_inputs
import proofs.«104045_j75591424410316_1_alg».proof.Proof.Gen.KernelIdeal.Value
import proofs.«104045_j75591424410316_1_alg».proof.Proof.RefRun
import proofs.«104045_j75591424410316_1_alg».proof.Proof.RefRead
import proofs.«104045_j75591424410316_1_alg».proof.Proof.NodeUpdate
import proofs.«104045_j75591424410316_1_alg».proof.Proof.BlockEntry
import proofs.«104045_j75591424410316_1_alg».proof.Proof.NodeArray
import proofs.«104045_j75591424410316_1_alg».proof.Proof.NeighbourMean
import proofs.«104045_j75591424410316_1_alg».proof.Proof.RefUpdate
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- From memories that agree on the seven arguments both programs end with the result array at the node update of the
    arguments and of the aggregated neighbour features: the kernel's by its 25 blocks, the reference's operation by
    operation, the neighbour features the same host chain of the same three arguments. -/
theorem algebraic : Cert.algebraic_KernelIdeal_ReferenceIdeal := by
  intro m ρ m' ρ' _ hagree
  refine ⟨_, Cert.KernelIdeal.NodeArray.run m ρ, ?_⟩
  refine (θ_run Cert.ReferenceIdeal.defs _ _).mono (fun _ h c => ⟨(h c).1.trans ?_, (h c).2⟩)
    (Cert.ReferenceIdeal.RunP.run (F := Ideal) m' ρ')
  refine (Cert.ReferenceIdeal.ReadP.val_main_v33_eq _ _ _ _ _ _ _).trans ?_
  refine (Cert.ReferenceIdeal.RefUpdate.result_eq _ _ _ _ _ _ _).trans ?_
  rw [(hagree c).1, (hagree c).2.1, (hagree c).2.2.1, (hagree c).2.2.2.1, (hagree c).2.2.2.2.1, (hagree c).2.2.2.2.2.1,
    (hagree c).2.2.2.2.2.2, Cert.KernelIdeal.NeighbourMean.neigh_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
